-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096 : S_.BroadcastsInDim S4096 (![] : Fin 0 → Fin S4096.rank)
  reducesTo_S4096_S_d0 : S4096.ReducesTo [0] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S4096 .f32) (main_arg5 : FVec F S4096x1024 .f32) (main_arg6 : FVec F S4096 .f32) (main_arg7 : FVec F S1024 .f32) (main_arg8 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_v33

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S4096 .f32) (main_arg5 : FVec F S4096x1024 .f32) (main_arg6 : FVec F S4096 .f32) (main_arg7 : FVec F S1024 .f32) (main_arg8 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_v13 main_v16
-- ==== Kernel.lean ====
abbrev S4096x1024 : Shape := ⟨2, ![4096, 1024]⟩
abbrev S4096 : Shape := ⟨1, ![4096]⟩
abbrev S1024 : Shape := ⟨1, ![1024]⟩
abbrev S1x4096 : Shape := ⟨2, ![1, 4096]⟩
abbrev S1x1024 : Shape := ⟨2, ![1, 1024]⟩
abbrev S128x1024 : Shape := ⟨2, ![128, 1024]⟩
abbrev S128x4096 : Shape := ⟨2, ![128, 4096]⟩
abbrev S128 : Shape := ⟨1, ![128]⟩
abbrev S128x1 : Shape := ⟨2, ![128, 1]⟩

abbrev nBuf : Space → Nat
  | .hbm => 19
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096, .f32⟩
  | .hbm, ⟨5, _⟩ => ⟨S4096x1024, .f32⟩
  | .hbm, ⟨6, _⟩ => ⟨S4096, .f32⟩
  | .hbm, ⟨7, _⟩ => ⟨S1024, .f32⟩
  | .hbm, ⟨8, _⟩ => ⟨S1024, .f32⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S1x4096, .f32⟩
  | .hbm, ⟨14, _⟩ => ⟨S1x4096, .f32⟩
  | .hbm, ⟨15, _⟩ => ⟨S1x1024, .f32⟩
  | .hbm, ⟨16, _⟩ => ⟨S1x1024, .f32⟩
  | .hbm, ⟨17, _⟩ => ⟨S4096x1024, .f32⟩
  | .hbm, ⟨18, _⟩ => ⟨S4096x1024, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .f32⟩
  | .local _ .vmem, ⟨5, _⟩ => ⟨S128x1024, .f32⟩
  | .local _ .vmem, ⟨6, _⟩ => ⟨S4096x1024, .bf16⟩
  | .local _ .vmem, ⟨7, _⟩ => ⟨S4096x1024, .bf16⟩
  | .local _ .vmem, ⟨8, _⟩ => ⟨S1x4096, .f32⟩
  | .local _ .vmem, ⟨9, _⟩ => ⟨S1x4096, .f32⟩
  | .local _ .vmem, ⟨10, _⟩ => ⟨S1x1024, .f32⟩
  | .local _ .vmem, ⟨11, _⟩ => ⟨S1x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  shapeCasts_S4096_S1x4096 : S4096.ShapeCasts S1x4096
  shapeCasts_S1024_S1x1024 : S1024.ShapeCasts S1x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  reduces_S128x1024_S128 : S128x1024.Reduces [1] S128
  shapeCasts_S128_S128x1 : S128.ShapeCasts S128x1
  broadcasts_S128x1_S128x1024 : S128x1.Broadcasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  dot_S128x1024_S4096x1024_S128x4096_1_1_0_0_n_n_wf : DotDims.WF S128x1024 S4096x1024 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .bf16 = 32 ∨ (Rect.block (s := S4096x1024) S128x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .bf16 = 32 ∨ (Rect.block (s := S4096x1024) S128x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S4096x1024.size a
  hwx0_2 : ∀ i : grid0.Coords, EltTy.bits .f32 = 32 ∨ (Rect.block (s := S4096x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1024.size a ≤ S4096x1024.size a
  hwx0_9 : ∀ i : grid0.Coords, EltTy.bits .f32 = 32 ∨ (Rect.block (s := S4096x1024) S128x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x1024.size a ≤ S4096x1024.size a
  hwx0_10 : ∀ i : grid0.Coords, EltTy.bits .f32 = 32 ∨ (Rect.block (s := S4096x1024) S128x1024.size (cc0_transform_10 i) (hinb0_10 i)).WholeWords (EltTy.packing .f32)

variable [Facts₀]

def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf

abbrev win0_0 : Pipeline.Window sig grid0 :=
  Pipeline.Window.ofSpec (Memref.whole main_v0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8_0) S128x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v8_1) S128x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096 : Shape := ⟨1, ![4096]⟩
abbrev S1024 : Shape := ⟨1, ![1024]⟩
abbrev S1024x4096 : Shape := ⟨2, ![1024, 4096]⟩
abbrev S4096x4096 : Shape := ⟨2, ![4096, 4096]⟩
abbrev S1x4096 : Shape := ⟨2, ![1, 4096]⟩
abbrev S_ : Shape := ⟨0, ![]⟩
abbrev S4096x1 : Shape := ⟨2, ![4096, 1]⟩
abbrev S1x1024 : Shape := ⟨2, ![1, 1024]⟩

abbrev nBuf : Space → Nat
  | .hbm => 83
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096, .f32⟩
  | .hbm, ⟨5, _⟩ => ⟨S4096x1024, .f32⟩
  | .hbm, ⟨6, _⟩ => ⟨S4096, .f32⟩
  | .hbm, ⟨7, _⟩ => ⟨S1024, .f32⟩
  | .hbm, ⟨8, _⟩ => ⟨S1024, .f32⟩
  | .hbm, ⟨9, _⟩ => ⟨S1024x4096, .f32⟩
  | .hbm, ⟨10, _⟩ => ⟨S4096x4096, .f32⟩
  | .hbm, ⟨11, _⟩ => ⟨S1x4096, .f32⟩
  | .hbm, ⟨12, _⟩ => ⟨S4096x4096, .f32⟩
  | .hbm, ⟨13, _⟩ => ⟨S4096x4096, .f32⟩
  | .hbm, ⟨14, _⟩ => ⟨S1024x4096, .f32⟩
  | .hbm, ⟨15, _⟩ => ⟨S4096x4096, .f32⟩
  | .hbm, ⟨16, _⟩ => ⟨S4096x4096, .f32⟩
  | .hbm, ⟨17, _⟩ => ⟨S1x4096, .f32⟩
  | .hbm, ⟨18, _⟩ => ⟨S4096x4096, .f32⟩
  | .hbm, ⟨19, _⟩ => ⟨S4096x4096, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S4096x1, .f32⟩
  | .hbm, ⟨73, _⟩ => ⟨S4096x1024, .f32⟩
  | .hbm, ⟨74, _⟩ => ⟨S4096x1024, .f32⟩
  | .hbm, ⟨75, _⟩ => ⟨S1x1024, .f32⟩
  | .hbm, ⟨76, _⟩ => ⟨S4096x1024, .f32⟩
  | .hbm, ⟨77, _⟩ => ⟨S4096x1024, .f32⟩
  | .hbm, ⟨78, _⟩ => ⟨S1x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  bcast_S_S4096x1024 : S_.BroadcastsInDim S4096x1024 (![] : Fin 0 → Fin S4096x1024.rank)
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.CellMath.lean ====
/-
  One LSTM step followed by a layer normalisation of the new cell state, as a function of the
  argument arrays over the extended reals.

  For a batch row `r` let `P j` (`j < 4096`) be the gate pre-activations of that row,
      P j = Σₖ x[r,k]·W_ih[j,k] + b_ih[j] + Σₖ h[r,k]·W_hh[j,k] + b_hh[j].
  The four gates of hidden unit `q < 1024` sit at columns `q`, `1024+q`, `2048+q`, `3072+q`
  (input, forget, output: the logistic function; candidate: tanh).  The new cell value is
  `c[r,q]·f + i·g`; its row mean and the row mean of its squared deviations give the normalised
  cell `(c' − μ)·rsqrt(var + ε)·γ[q] + β[q]`, and the new hidden value is `o·tanh` of that.
  The logistic function is spelt as the quotient `1 / (1 + e^{−z})`, which on the extended reals
  is the same function; the divisor `1024` and `ε` are kept as the f32 words both programs print.

  The second form of the pre-activations, `(Σ x·W_ih + Σ h·W_hh) + (b_ih + b_hh)`, differs from the
  first only by the grouping of a sum of four terms: addition of extended reals is commutative and
  associative, so the two agree everywhere (no finiteness is needed).
-/
import Idealize.ShloMosaic.PureOps.Ideal
import Idealize.ShloMosaic.PureOps.Ideal.Laws
import Idealize.ShloMosaic.Lib.ValueIdx

noncomputable section

open scoped BigOperators

namespace Cert.Lstm

open Idealize.ShloMosaic Idealize.ShloMosaic.ValueIdx

/-- The f32 word of `1.0` denotes the real number one. -/
theorem ofBits_one_f32 : Ideal.ofBits .f32 0x3F800000#32 = 1 := by
  simp [Ideal.ofBits, Ideal.ieee, -EReal.coe_mul]; norm_num

/-- The logistic function written as a quotient, `1 / (1 + e^{−z})`, both ones the f32 word of `1.0`. -/
def sigm (z : EReal) : EReal :=
  Ideal.div (Ideal.ofBits .f32 0x3F800000#32) (Ideal.ofBits .f32 0x3F800000#32 + Ideal.exp (-z))

/-- The quotient is the logistic function, at the infinities too. -/
theorem sigm_eq_logistic (z : EReal) : sigm z = Ideal.logistic z := by
  unfold sigm Ideal.logistic
  rw [ofBits_one_f32]

/-! ## The gate columns of a hidden unit -/

/-- Input gate: column `q`. -/
def colI (q : Fin 1024) : Fin 4096 := ⟨q.val, by have := q.isLt; omega⟩
/-- Forget gate: column `1024 + q`. -/
def colF (q : Fin 1024) : Fin 4096 := ⟨1024 + q.val, by have := q.isLt; omega⟩
/-- Output gate: column `2048 + q`. -/
def colO (q : Fin 1024) : Fin 4096 := ⟨2048 + q.val, by have := q.isLt; omega⟩
/-- Candidate: column `3072 + q`. -/
def colG (q : Fin 1024) : Fin 4096 := ⟨3072 + q.val, by have := q.isLt; omega⟩

/-! ## One row, from its pre-activations -/

section Row

variable (cr : Fin 1024 → EReal) (P : Fin 4096 → EReal) (gam bet : Fin 1024 → EReal)

/-- The new cell value of hidden unit `q`: `c·f + i·g`. -/
def cellNew (q : Fin 1024) : EReal :=
  cr q * sigm (P (colF q)) + sigm (P (colI q)) * Ideal.tanh (P (colG q))

/-- The row's mean of the new cell values. -/
def cellMean : EReal := Ideal.div (∑ q : Fin 1024, cellNew cr P q) (Ideal.ofBits .f32 0x44800000#32)

/-- The deviation from the mean. -/
def cellDev (q : Fin 1024) : EReal := cellNew cr P q - cellMean cr P

/-- The row's sum of squared deviations. -/
def cellSq : EReal := ∑ q : Fin 1024, cellDev cr P q * cellDev cr P q

/-- The normalised cell value: `(c' − μ)·rsqrt(Σ(c' − μ)²/1024 + ε)·γ + β`. -/
def cellNorm (q : Fin 1024) : EReal :=
  cellDev cr P q * Ideal.rsqrt (Ideal.div (cellSq cr P) (Ideal.ofBits .f32 0x44800000#32) + Ideal.ofBits .f32 0x3727C5AC#32)
    * gam q + bet q

/-- The new hidden value: `o·tanh` of the normalised cell value. -/
def hidNew (q : Fin 1024) : EReal := sigm (P (colO q)) * Ideal.tanh (cellNorm cr P gam bet q)

end Row

/-! ## The pre-activations of a row, in two groupings -/

section Pre

variable (xr hr : Fin 1024 → EReal) (Wih Whh : Fin 4096 → Fin 1024 → EReal) (bih bhh : Fin 4096 → EReal)

/-- `((Σ x·W_ih + b_ih) + Σ h·W_hh) + b_hh`. -/
def preSeq (j : Fin 4096) : EReal :=
  (∑ k : Fin 1024, xr k * Wih j k) + bih j + (∑ k : Fin 1024, hr k * Whh j k) + bhh j

/-- `(Σ x·W_ih + Σ h·W_hh) + (b_ih + b_hh)`. -/
def prePair (j : Fin 4096) : EReal :=
  ((∑ k : Fin 1024, xr k * Wih j k) + ∑ k : Fin 1024, hr k * Whh j k) + (bih j + bhh j)

/-- The two groupings are one function: a sum of four extended reals regrouped. -/
theorem prePair_eq_preSeq : prePair xr hr Wih Whh bih bhh = preSeq xr hr Wih Whh bih bhh := by
  funext j
  unfold prePair preSeq
  rw [add_add_add_comm, ← add_assoc]

end Pre

/-! ## The whole arrays -/

/-- A `[4096, 1024]` array of extended reals. -/
abbrev Mat := (⟨2, ![4096, 1024]⟩ : Shape).Idx → EReal
/-- A `[4096]` array (a bias over the gate columns). -/
abbrev GateVec := (⟨1, ![4096]⟩ : Shape).Idx → EReal
/-- A `[1024]` array (a layer-norm parameter over the hidden units). -/
abbrev HidVec := (⟨1, ![1024]⟩ : Shape).Idx → EReal

section Arrays

variable (x h c Wih : Mat) (bih : GateVec) (Whh : Mat) (bhh : GateVec) (gam bet : HidVec)

/-- Row `r`'s pre-activations from the argument arrays. -/
def rowPre (r : Fin 4096) : Fin 4096 → EReal :=
  preSeq (fun k => x (ix2 r k)) (fun k => h (ix2 r k)) (fun j k => Wih (ix2 j k)) (fun j k => Whh (ix2 j k))
    (fun j => bih (ix1 j)) (fun j => bhh (ix1 j))

/-- The normalised new cell state, as one array of the nine arguments. -/
def specCell : Mat := fun i =>
  cellNorm (fun q => c (ix2 (i 0) q)) (rowPre x h Wih bih Whh bhh (i 0)) (fun q => gam (ix1 q)) (fun q => bet (ix1 q)) (i 1)

/-- The new hidden state, as one array of the nine arguments. -/
def specHid : Mat := fun i =>
  hidNew (fun q => c (ix2 (i 0) q)) (rowPre x h Wih bih Whh bhh (i 0)) (fun q => gam (ix1 q)) (fun q => bet (ix1 q)) (i 1)

end Arrays

end Cert.Lstm

end
-- ==== Proof.HostSide.lean ====
/-
  The host program's two results are `specHid` and `specCell` of its nine arguments.

  The host computes, on whole arrays, `x·W_ihᵀ + b_ih + h·W_hhᵀ + b_hh` (the transposes and broadcasts are
  re-indexings), slices the four gates, spells each logistic function as `1 / (1 + e^{−z})`, and takes the
  two row means as a sum from zero divided by `1024`.  Read at entry `(r, q)`, stage by stage, this is the
  row mathematics of `CellMath` at row `r` and hidden unit `q`; the only arithmetic used is `0 + s = s` for
  the two sums' initial value.
-/
import proofs.«165043_j12713103196909_1_alg».proof.Proof.Gen.ReferenceIdeal.Read
import proofs.«165043_j12713103196909_1_alg».proof.Proof.CellMath

noncomputable section

open scoped BigOperators

namespace Cert.Lstm.Host

open Cert.ReferenceIdeal Cert.ReferenceIdeal.Gen Cert.ReferenceIdeal.Read
open Idealize.ShloMosaic Idealize.ShloMosaic.ValueIdx Cert.Lstm

variable (x0 x1 x2 x3 : (⟨S4096x1024, .f32⟩ : BufTy).Contents (Elt Ideal)) (x4 : (⟨S4096, .f32⟩ : BufTy).Contents (Elt Ideal))
  (x5 : (⟨S4096x1024, .f32⟩ : BufTy).Contents (Elt Ideal)) (x6 : (⟨S4096, .f32⟩ : BufTy).Contents (Elt Ideal))
  (x7 x8 : (⟨S1024, .f32⟩ : BufTy).Contents (Elt Ideal))

/-- The pre-activations at `(r, j)`: row `r` of `x` and `h` against row `j` of the two weight matrices, the biases at `j`. -/
theorem pre_entry (r j : Fin 4096) :
    val_main_v10 (F := Ideal) x0 x1 x3 x4 x5 x6 (ix2 r j) = rowPre x0 x1 x3 x4 x5 x6 r j := by
  have e1 : ∀ k, lidx_main_v1 (ix2 r j) k = ix2 r k := fun k => funext fun a => by
    match a with
    | ⟨0, _⟩ => rfl
    | ⟨1, _⟩ => rfl
  have e2 : ∀ k, idx_main_v0 (ridx_main_v1 (ix2 r j) k) = ix2 j k := fun k => funext fun a => by
    match a with
    | ⟨0, _⟩ => rfl
    | ⟨1, _⟩ => rfl
  have e3 : idx_main_v2 (idx_main_v3 (ix2 r j)) = ix1 j := funext fun a => by
    match a with
    | ⟨0, _⟩ => rfl
  have e4 : ∀ k, lidx_main_v6 (ix2 r j) k = ix2 r k := fun k => funext fun a => by
    match a with
    | ⟨0, _⟩ => rfl
    | ⟨1, _⟩ => rfl
  have e5 : ∀ k, idx_main_v5 (ridx_main_v6 (ix2 r j) k) = ix2 j k := fun k => funext fun a => by
    match a with
    | ⟨0, _⟩ => rfl
    | ⟨1, _⟩ => rfl
  have e6 : idx_main_v8 (idx_main_v9 (ix2 r j)) = ix1 j := funext fun a => by
    match a with
    | ⟨0, _⟩ => rfl
  rw [val_main_v10_apply, val_main_v7_apply, val_main_v4_apply, val_main_v1_apply, val_main_v3_apply, val_main_v2_apply,
    val_main_v6_apply, val_main_v9_apply, val_main_v8_apply]
  simp only [val_main_v0_apply, val_main_v5_apply, e1, e2, e3, e4, e5, e6]
  rfl

/-- The new cell value at `(r, q)`. -/
theorem cnew_entry (r : Fin 4096) (q : Fin 1024) :
    val_main_v36 (F := Ideal) x0 x1 x2 x3 x4 x5 x6 (ix2 r q)
      = cellNew (fun q => x2 (ix2 r q)) (rowPre x0 x1 x3 x4 x5 x6 r) q := by
  have i18 : idx_main_v18 (ix2 r q) = ix2 r (colF q) := funext fun a => by
    match a with
    | ⟨0, _⟩ => rfl
    | ⟨1, _⟩ => rfl
  have i11 : idx_main_v11 (ix2 r q) = ix2 r (colI q) := funext fun a => by
    match a with
    | ⟨0, _⟩ => rfl
    | ⟨1, _⟩ => rfl
  have i32 : idx_main_v32 (ix2 r q) = ix2 r (colG q) := funext fun a => by
    match a with
    | ⟨0, _⟩ => rfl
    | ⟨1, _⟩ => rfl
  rw [val_main_v36_apply, val_main_v34_apply, val_main_v35_apply, val_main_v24_apply, val_main_v23_apply, val_main_cst_2_apply,
    val_main_v22_apply, val_main_v21_apply, val_main_cst_1_apply, val_main_v20_apply, val_main_v19_apply, val_main_v18_apply, i18, pre_entry,
    val_main_v17_apply, val_main_v16_apply, val_main_cst_0_apply, val_main_v15_apply, val_main_v14_apply, val_main_cst_apply,
    val_main_v13_apply, val_main_v12_apply, val_main_v11_apply, i11, pre_entry,
    val_main_v33_apply, val_main_v32_apply, i32, pre_entry]
  rfl

/-- The row mean, kept as a column. -/
theorem mean_entry (r : Fin 4096) (u : Fin 1) :
    val_main_v40 (F := Ideal) x0 x1 x2 x3 x4 x5 x6 (ix2 r u)
      = cellMean (fun q => x2 (ix2 r q)) (rowPre x0 x1 x3 x4 x5 x6 r) := by
  have i38 : idx_main_v38 (ix2 r u) = ix1 r := funext fun a => by
    match a with
    | ⟨0, _⟩ => rfl
  have i37 : ∀ k, idx_main_v37 (ix1 r) k = ix2 r k := fun k => funext fun a => by
    match a with
    | ⟨0, _⟩ => rfl
    | ⟨1, _⟩ => rfl
  rw [val_main_v40_apply, val_main_v38_apply, i38, val_main_v37_apply, val_main_cst_5_apply, val_main_v39_apply, val_main_cst_6_apply]
  simp only [i37, cnew_entry]
  unfold cellMean
  show Ideal.div (Ideal.ofBits .f32 0x00000000#32 + _) _ = _
  rw [Ideal.ofBits_zero_f32, zero_add]
  rfl

/-- The deviation from the row mean at `(r, q)` (the host forms it twice: for the variance and for the result). -/
theorem dev_entry (r : Fin 4096) (q : Fin 1024) :
    val_main_v42 (F := Ideal) x0 x1 x2 x3 x4 x5 x6 (ix2 r q)
      = cellDev (fun q => x2 (ix2 r q)) (rowPre x0 x1 x3 x4 x5 x6 r) q := by
  have i41 : idx_main_v41 (ix2 r q) = ix2 r (0 : Fin 1) := funext fun a => by
    match a with
    | ⟨0, _⟩ => rfl
    | ⟨1, _⟩ => rfl
  rw [val_main_v42_apply, val_main_v41_apply, i41, mean_entry, cnew_entry]
  rfl

theorem dev_entry' (r : Fin 4096) (q : Fin 1024) :
    val_main_v49 (F := Ideal) x0 x1 x2 x3 x4 x5 x6 (ix2 r q)
      = cellDev (fun q => x2 (ix2 r q)) (rowPre x0 x1 x3 x4 x5 x6 r) q := by
  have i48 : idx_main_v48 (ix2 r q) = ix2 r (0 : Fin 1) := funext fun a => by
    match a with
    | ⟨0, _⟩ => rfl
    | ⟨1, _⟩ => rfl
  rw [val_main_v49_apply, val_main_v48_apply, i48, mean_entry, cnew_entry]
  rfl

/-- The row's mean of squared deviations, kept as a column. -/
theorem var_entry (r : Fin 4096) (u : Fin 1) :
    val_main_v47 (F := Ideal) x0 x1 x2 x3 x4 x5 x6 (ix2 r u)
      = Ideal.div (cellSq (fun q => x2 (ix2 r q)) (rowPre x0 x1 x3 x4 x5 x6 r)) (Ideal.ofBits .f32 0x44800000#32) := by
  have i45 : idx_main_v45 (ix2 r u) = ix1 r := funext fun a => by
    match a with
    | ⟨0, _⟩ => rfl
  have i44 : ∀ k, idx_main_v44 (ix1 r) k = ix2 r k := fun k => funext fun a => by
    match a with
    | ⟨0, _⟩ => rfl
    | ⟨1, _⟩ => rfl
  rw [val_main_v47_apply, val_main_v45_apply, i45, val_main_v44_apply, val_main_cst_7_apply, val_main_v46_apply, val_main_cst_8_apply]
  simp only [i44, val_main_v43_apply, dev_entry]
  unfold cellSq
  show Ideal.div (Ideal.ofBits .f32 0x00000000#32 + _) _ = _
  rw [Ideal.ofBits_zero_f32, zero_add]
  rfl

/-- The normalised cell value at `(r, q)`. -/
theorem cell_entry (r : Fin 4096) (q : Fin 1024) :
    val_main_v60 (F := Ideal) x0 x1 x2 x3 x4 x5 x6 x7 x8 (ix2 r q)
      = cellNorm (fun q => x2 (ix2 r q)) (rowPre x0 x1 x3 x4 x5 x6 r) (fun q => x7 (ix1 q)) (fun q => x8 (ix1 q)) q := by
  have i53 : idx_main_v53 (ix2 r q) = ix2 r (0 : Fin 1) := funext fun a => by
    match a with
    | ⟨0, _⟩ => rfl
    | ⟨1, _⟩ => rfl
  have i56 : idx_main_v55 (idx_main_v56 (ix2 r q)) = ix1 q := funext fun a => by
    match a with
    | ⟨0, _⟩ => rfl
  have i59 : idx_main_v58 (idx_main_v59 (ix2 r q)) = ix1 q := funext fun a => by
    match a with
    | ⟨0, _⟩ => rfl
  rw [val_main_v60_apply, val_main_v57_apply, val_main_v54_apply, dev_entry', val_main_v53_apply, i53, val_main_v52_apply,
    val_main_v51_apply, var_entry, val_main_v50_apply, val_main_cst_9_apply, val_main_v56_apply, val_main_v55_apply, i56,
    val_main_v59_apply, val_main_v58_apply, i59]
  rfl

/-- The new hidden value at `(r, q)`. -/
theorem hid_entry (r : Fin 4096) (q : Fin 1024) :
    val_main_v62 (F := Ideal) x0 x1 x2 x3 x4 x5 x6 x7 x8 (ix2 r q)
      = hidNew (fun q => x2 (ix2 r q)) (rowPre x0 x1 x3 x4 x5 x6 r) (fun q => x7 (ix1 q)) (fun q => x8 (ix1 q)) q := by
  have i25 : idx_main_v25 (ix2 r q) = ix2 r (colO q) := funext fun a => by
    match a with
    | ⟨0, _⟩ => rfl
    | ⟨1, _⟩ => rfl
  rw [val_main_v62_apply, val_main_v61_apply, cell_entry, val_main_v31_apply, val_main_v30_apply, val_main_cst_4_apply,
    val_main_v29_apply, val_main_v28_apply, val_main_cst_3_apply, val_main_v27_apply, val_main_v26_apply, val_main_v25_apply, i25, pre_entry]
  rfl

/-- The host's second result is the normalised new cell state. -/
theorem cell_eq : val_main_v60 (F := Ideal) x0 x1 x2 x3 x4 x5 x6 x7 x8 = specCell x0 x1 x2 x3 x4 x5 x6 x7 x8 := by
  funext i
  obtain ⟨r, q, rfl⟩ : ∃ (r : Fin 4096) (q : Fin 1024), i = ix2 r q := ⟨i 0, i 1, eq_ix2 i⟩
  exact cell_entry x0 x1 x2 x3 x4 x5 x6 x7 x8 r q

/-- The host's first result is the new hidden state. -/
theorem hid_eq : val_main_v62 (F := Ideal) x0 x1 x2 x3 x4 x5 x6 x7 x8 = specHid x0 x1 x2 x3 x4 x5 x6 x7 x8 := by
  funext i
  obtain ⟨r, q, rfl⟩ : ∃ (r : Fin 4096) (q : Fin 1024), i = ix2 r q := ⟨i 0, i 1, eq_ix2 i⟩
  exact hid_entry x0 x1 x2 x3 x4 x5 x6 x7 x8 r q

end Cert.Lstm.Host

end
-- ==== Proof.LibKeepdims.lean ====
/-
  Two layout operations read at an index given by coordinates, for a row statistic kept as a
  column (`keepdims=True`): the cast of an `[a]` vector to an `[a, 1]` column, and the broadcast of an
  `[a, 1]` column along the rows of an `[a, b]` matrix.  Both are the library's general lemmas
  (a shape cast keeps the row-major position; a broadcast reads coordinate `0` on a unit axis) with
  the coordinates' arithmetic done once, so that they apply to a printed operation by rewriting.
-/
import Idealize.ShloMosaic.Lib.ValueLayout

namespace Cert.LibKeepdims

open Idealize.ShloMosaic Idealize.ShloMosaic.ValueIdx

variable {α : Type}

/-- An `[a]` array cast to `[a, 1]` reads, at `(i, u)`, the operand at `i`, whatever the unit coordinate `u`:
    entry `(i, u)` of the column sits at row-major position `i·1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Payload.lean ====
/-
  The kernel body's arithmetic read at one entry of a block.

  A grid point holds 128 batch rows.  Its body forms the `[128, 4096]` gate pre-activations as two
  matrix products into zero accumulators plus the broadcast sum of the two biases, slices the four
  gates out of them, forms the new cell values, reduces each row twice (mean, then the mean of the
  squared deviations) and normalises.  Read at row `p` and column `q` of the block, every operation is
  the scalar operation of `CellMath` on row `p` of the loaded blocks: a matrix product into a zero
  accumulator is the sum over the contraction index, a slice shifts the column, a lane reduction is
  the sum over the row, a kept column statistic reads its row's entry.
-/
import proofs.«165043_j12713103196909_1_alg».proof.Proof.Gen.KernelIdeal.Skeleton
import proofs.«165043_j12713103196909_1_alg».proof.Proof.CellMath
import proofs.«165043_j12713103196909_1_alg».proof.Proof.LibKeepdims
import Idealize.ShloMosaic.Lib.ValueLayout
import Idealize.ShloMosaic.PureOps.Ideal.Laws

noncomputable section

open scoped BigOperators

namespace Cert.Lstm.Body

open Cert.KernelIdeal Cert.KernelIdeal.Gen
open Idealize.ShloMosaic Idealize.ShloMosaic.ValueIdx Cert.Lstm Cert.LibKeepdims

/-! ## The matrix product `[128, 1024] × [4096, 1024]ᵀ` at an entry -/

theorem lhs_gate_0 (i : S128x4096.Idx) (q : dot_S128x1024_S4096x1024_S128x4096_1_1_0_0_n_n.contr.Idx) :
    (dot_S128x1024_S4096x1024_S128x4096_1_1_0_0_n_n.lhsIdx i q 0).val = (i 0).val := by
  unfold DotDims.lhsIdx
  rw [dif_neg (show ¬(0 : Fin S128x1024.rank) ∈ dot_S128x1024_S4096x1024_S128x4096_1_1_0_0_n_n.lhsBatch by decide), dif_pos (show (0 : Fin S128x1024.rank) ∈ dot_S128x1024_S4096x1024_S128x4096_1_1_0_0_n_n.lhsNonContracting by decide)]
  rfl
theorem lhs_gate_1 (i : S128x4096.Idx) (q : dot_S128x1024_S4096x1024_S128x4096_1_1_0_0_n_n.contr.Idx) :
    (dot_S128x1024_S4096x1024_S128x4096_1_1_0_0_n_n.lhsIdx i q 1).val = (q ⟨0, by decide⟩).val :=
  dot_S128x1024_S4096x1024_S128x4096_1_1_0_0_n_n.lhsIdx_val_of_single rfl i q
theorem rhs_gate_0 (i : S128x4096.Idx) (q : dot_S128x1024_S4096x1024_S128x4096_1_1_0_0_n_n.contr.Idx) :
    (dot_S128x1024_S4096x1024_S128x4096_1_1_0_0_n_n.rhsIdx i q 0).val = (i 1).val := by
  unfold DotDims.rhsIdx
  rw [dif_neg (show ¬(0 : Fin S4096x1024.rank) ∈ dot_S128x1024_S4096x1024_S128x4096_1_1_0_0_n_n.rhsBatch by decide), dif_pos (show (0 : Fin S4096x1024.rank) ∈ dot_S128x1024_S4096x1024_S128x4096_1_1_0_0_n_n.rhsNonContracting by decide)]
  rfl
theorem rhs_gate_1 (i : S128x4096.Idx) (q : dot_S128x1024_S4096x1024_S128x4096_1_1_0_0_n_n.contr.Idx) :
    (dot_S128x1024_S4096x1024_S128x4096_1_1_0_0_n_n.rhsIdx i q 1).val = (q ⟨0, by decide⟩).val :=
  dot_S128x1024_S4096x1024_S128x4096_1_1_0_0_n_n.rhsIdx_val_of_single rfl i q

/-- Entry `(p, j)` of a row block times the transposed weights, accumulated from zero, is the sum over `k` of
    row `p` of the block against row `j` of the weights. -/
theorem matmul_gate (l : FVec Ideal S128x1024 .bf16) (r : FVec Ideal S4096x1024 .bf16) (p : Fin 128) (j : Fin 4096) :
    matmul dot_S128x1024_S4096x1024_S128x4096_1_1_0_0_n_n none l r (constant (F := Ideal) S128x4096 .f32 0x00000000#32) (ix2 p j)
      = ∑ k : Fin 1024, l (ix2 p k) * r (ix2 j k) := by
  simp only [matmul]
  rw [Ideal.matmul_constant_zero_apply, ← Equiv.sum_comp (contrEquiv1 dot_S128x1024_S4096x1024_S128x4096_1_1_0_0_n_n 1024 rfl rfl).symm]
  refine Finset.sum_congr rfl fun k _ => ?_
  have hk := contrEquiv1_symm_val dot_S128x1024_S4096x1024_S128x4096_1_1_0_0_n_n 1024 rfl rfl k
  have el : dot_S128x1024_S4096x1024_S128x4096_1_1_0_0_n_n.lhsIdx (ix2 p j) ((contrEquiv1 dot_S128x1024_S4096x1024_S128x4096_1_1_0_0_n_n 1024 rfl rfl).symm k) = ix2 p k := funext fun a => Fin.ext (by
    match a with
    | ⟨0, _⟩ => exact lhs_gate_0 _ _
    | ⟨1, _⟩ => exact (lhs_gate_1 _ _).trans hk)
  have er : dot_S128x1024_S4096x1024_S128x4096_1_1_0_0_n_n.rhsIdx (ix2 p j) ((contrEquiv1 dot_S128x1024_S4096x1024_S128x4096_1_1_0_0_n_n 1024 rfl rfl).symm k) = ix2 j k := funext fun a => Fin.ext (by
    match a with
    | ⟨0, _⟩ => exact rhs_gate_0 _ _
    | ⟨1, _⟩ => exact (rhs_gate_1 _ _).trans hk)
  rw [el, er]

/-! ## The pre-activations -/

/-- Entry `(p, j)` of the block's pre-activations: row `p` of the two loaded row blocks against row `j` of the two weight
    matrices, plus the two biases at `j` (the paired grouping of `CellMath`). -/
theorem pre_apply (v0 : Vec Ideal S128x1024 .bf16) (v2 : Vec Ideal S4096x1024 .bf16) (v5 : Vec Ideal S128x1024 .bf16) (v7 : Vec Ideal S4096x1024 .bf16)
    (v11 : Vec Ideal S1x4096 .f32) (v13 : Vec Ideal S1x4096 .f32) (p : Fin 128) (j : Fin 4096) :
    k0_pay3 v0 v2 v5 v7 v11 v13 (ix2 p j)
      = prePair (fun k => v0 (ix2 p k)) (fun k => v5 (ix2 p k)) (fun j k => v2 (ix2 j k)) (fun j k => v7 (ix2 j k))
          (fun j => v11 (ix2 (0 : Fin 1) j)) (fun j => v13 (ix2 (0 : Fin 1) j)) j := by
  unfold k0_pay3 prePair
  simp only [shapeCast_self]
  rw [addf_apply, addf_apply, matmul_gate, matmul_gate, broadcastTo_1b_ab_apply, addf_apply]

/-! ## The pointwise and row operations at an entry -/

theorem logistic_at {s : Shape} {φ : FTy} (a : FVec Ideal s φ) (i : s.Idx) : logistic a i = Ideal.logistic (a i) := rfl
theorem tanh_at {s : Shape} {φ : FTy} (a : FVec Ideal s φ) (i : s.Idx) : tanh a i = Ideal.tanh (a i) := rfl

/-- A lane sum of a `[128, 1024]` block at row `p` is the sum of that row. -/
theorem rowSum_apply (src : FVec Ideal S128x1024 .f32) (p : Fin 128) :
    multiReduction .add [1] S128 src 0x00000000#32 reduces_S128x1024_S128 (.inl rfl) rfl (ix1 p) = ∑ q : Fin 1024, src (ix2 p q) := by
  refine (Ideal.multiReduction_add_single src 0x00000000#32 reduces_S128x1024_S128 (.inl rfl) rfl (ix1 p)).trans ?_
  refine Finset.sum_congr rfl fun q _ => congrArg src ?_
  funext a
  apply Fin.ext
  match a with
  | ⟨0, _⟩ => rfl
  | ⟨1, _⟩ => rfl

section Entry

variable (v0 : Vec Ideal S128x1024 .bf16) (v2 : Vec Ideal S4096x1024 .bf16) (v5 : Vec Ideal S128x1024 .bf16) (v7 : Vec Ideal S4096x1024 .bf16)
  (v11 : Vec Ideal S1x4096 .f32) (v13 : Vec Ideal S1x4096 .f32) (v26 : Vec Ideal S128x1024 .f32)
  (v48 : Vec Ideal S1x1024 .f32) (v52 : Vec Ideal S1x1024 .f32)

/-- The new cell value at `(p, q)`: the four gate columns of unit `q` in row `p` of the pre-activations. -/
theorem cnew_apply (p : Fin 128) (q : Fin 1024) :
    k0_pay5 v0 v2 v5 v7 v11 v13 v26 (ix2 p q)
      = cellNew (fun q => v26 (ix2 p q)) (fun j => k0_pay3 v0 v2 v5 v7 v11 v13 (ix2 p j)) q := by
  unfold k0_pay5 cellNew
  dsimp only
  rw [addf_apply, mulf_apply, mulf_apply, logistic_at, logistic_at, tanh_at,
    slice2_axis1_apply 1024 _ _ p q (colF q) rfl, slice2_axis1_apply 0 _ _ p q (colI q) (Nat.zero_add _).symm,
    slice2_axis1_apply 3072 _ _ p q (colG q) rfl, sigm_eq_logistic, sigm_eq_logistic]

/-- The row mean kept as a column: entry `(p, ·)` is the mean of row `p`'s new cell values. -/
theorem mean_apply (p : Fin 128) (u : Fin 1) :
    k0_pay6 v0 v2 v5 v7 v11 v13 v26 (ix2 p u)
      = cellMean (fun q => v26 (ix2 p q)) (fun j => k0_pay3 v0 v2 v5 v7 v11 v13 (ix2 p j)) := by
  unfold k0_pay6 cellMean
  dsimp only
  rw [divf_apply, shapeCast_a_a1_apply, rowSum_apply, broadcast_apply]
  refine congrArg (fun s => Ideal.div s _) (Finset.sum_congr rfl fun q _ => ?_)
  rw [cnew_apply]

/-- The row's sum of squared deviations kept as a column. -/
theorem sq_apply (p : Fin 128) (u : Fin 1) :
    k0_pay7 v0 v2 v5 v7 v11 v13 v26 (ix2 p u)
      = cellSq (fun q => v26 (ix2 p q)) (fun j => k0_pay3 v0 v2 v5 v7 v11 v13 (ix2 p j)) := by
  unfold k0_pay7 cellSq
  dsimp only
  rw [shapeCast_a_a1_apply, rowSum_apply]
  refine Finset.sum_congr rfl fun q _ => ?_
  rw [mulf_apply, subf_apply, broadcastTo_a1_ab_apply, cnew_apply, mean_apply]
  rfl

end Entry

/-- The normalisation at `(p, q)`, for any new-cell block, mean column and squared-deviation column. -/
theorem norm_apply (v29 : FVec Ideal S128x1024 .f32) (v33 v38 : FVec Ideal S128x1 .f32) (cst : Ideal .f32)
    (v48 : Vec Ideal S1x1024 .f32) (v52 : Vec Ideal S1x1024 .f32) (p : Fin 128) (q : Fin 1024) :
    k0_pay1 v29 v33 v38 cst v48 v52 (ix2 p q)
      = (v29 (ix2 p q) - v33 (ix2 p (0 : Fin 1))) * Ideal.rsqrt (Ideal.div (v38 (ix2 p (0 : Fin 1))) cst + Ideal.ofBits .f32 0x3727C5AC#32)
          * v48 (ix2 (0 : Fin 1) q) + v52 (ix2 (0 : Fin 1) q) := by
  unfold k0_pay1
  simp only [shapeCast_self]
  rw [addf_apply, mulf_apply, mulf_apply, subf_apply, broadcastTo_a1_ab_apply, broadcastTo_a1_ab_apply,
    broadcastTo_1b_ab_apply, broadcastTo_1b_ab_apply]
  rfl

section Stores

variable (v0 : Vec Ideal S128x1024 .bf16) (v2 : Vec Ideal S4096x1024 .bf16) (v5 : Vec Ideal S128x1024 .bf16) (v7 : Vec Ideal S4096x1024 .bf16)
  (v11 : Vec Ideal S1x4096 .f32) (v13 : Vec Ideal S1x4096 .f32) (v26 : Vec Ideal S128x1024 .f32)
  (v48 : Vec Ideal S1x1024 .f32) (v52 : Vec Ideal S1x1024 .f32)

/-- Row `p`'s pre-activations of the block, in the sequential grouping. -/
theorem pre_row (p : Fin 128) :
    (fun j => k0_pay3 v0 v2 v5 v7 v11 v13 (ix2 p j))
      = preSeq (fun k => v0 (ix2 p k)) (fun k => v5 (ix2 p k)) (fun j k => v2 (ix2 j k)) (fun j k => v7 (ix2 j k))
          (fun j => v11 (ix2 (0 : Fin 1) j)) (fun j => v13 (ix2 (0 : Fin 1) j)) := by
  rw [← prePair_eq_preSeq]
  funext j
  exact pre_apply v0 v2 v5 v7 v11 v13 p j

/-- What the body stores into the cell-state output block, at `(p, q)`. -/
theorem cell_apply (p : Fin 128) (q : Fin 1024) :
    k0_pay1 (k0_pay5 v0 v2 v5 v7 v11 v13 v26) (k0_pay6 v0 v2 v5 v7 v11 v13 v26) (k0_pay7 v0 v2 v5 v7 v11 v13 v26)
        (Scalar.ofBits .f32 0x44800000#32) v48 v52 (ix2 p q)
      = cellNorm (fun q => v26 (ix2 p q))
          (preSeq (fun k => v0 (ix2 p k)) (fun k => v5 (ix2 p k)) (fun j k => v2 (ix2 j k)) (fun j k => v7 (ix2 j k))
            (fun j => v11 (ix2 (0 : Fin 1) j)) (fun j => v13 (ix2 (0 : Fin 1) j)))
          (fun q => v48 (ix2 (0 : Fin 1) q)) (fun q => v52 (ix2 (0 : Fin 1) q)) q := by
  rw [norm_apply, cnew_apply, mean_apply, sq_apply, pre_row]
  rfl

/-- What the body stores into the hidden-state output block, at `(p, q)`. -/
theorem hid_apply (p : Fin 128) (q : Fin 1024) :
    k0_pay2 (k0_pay4 v0 v2 v5 v7 v11 v13) (k0_pay5 v0 v2 v5 v7 v11 v13 v26) (k0_pay6 v0 v2 v5 v7 v11 v13 v26) (k0_pay7 v0 v2 v5 v7 v11 v13 v26)
        (Scalar.ofBits .f32 0x44800000#32) v48 v52 (ix2 p q)
      = hidNew (fun q => v26 (ix2 p q))
          (preSeq (fun k => v0 (ix2 p k)) (fun k => v5 (ix2 p k)) (fun j k => v2 (ix2 j k)) (fun j k => v7 (ix2 j k))
            (fun j => v11 (ix2 (0 : Fin 1) j)) (fun j => v13 (ix2 (0 : Fin 1) j)))
          (fun q => v48 (ix2 (0 : Fin 1) q)) (fun q => v52 (ix2 (0 : Fin 1) q)) q := by
  unfold k0_pay2 k0_pay4 hidNew
  dsimp only
  rw [mulf_apply, logistic_at, tanh_at, slice2_axis1_apply 2048 _ _ p q (colO q) rfl, cell_apply, ← sigm_eq_logistic, ← pre_row]

end Stores

end Cert.Lstm.Body

end
-- ==== Proof.KernelValue.lean ====
/-
  The kernel's two result arrays are `specHid` and `specCell` of its nine arguments.

  Grid point `t` (of 32) stages rows `128·t … 128·t + 127` of `x`, `h` and `c` (the first two narrowed to bf16 on the
  host, which over the extended reals changes nothing), the whole of both weight matrices, and the biases and
  layer-norm parameters viewed as one-row matrices; it writes rows `128·t … 128·t + 127` of both results.  By
  `Payload`, entry `(p, q)` of what it writes is the row mathematics at row `128·t + p`; the 32 row blocks tile the
  `4096` rows, so each result array is the whole-array function.
-/
import proofs.«165043_j12713103196909_1_alg».proof.Proof.Gen.KernelIdeal.Value
import proofs.«165043_j12713103196909_1_alg».proof.Proof.Payload
import Idealize.ShloMosaic.Lib.Pipeline.Value
import Idealize.ShloMosaic.Lib.StableHlo.Run
import Idealize.ShloMosaic.Lib.ValueLayout

noncomputable section

open scoped BigOperators

namespace Cert.Lstm.Kernel

open Cert.KernelIdeal Cert.KernelIdeal.Gen Cert.KernelIdeal.Value
open Idealize.ShloMosaic Idealize.ShloMosaic.TcCoe Idealize.SL.Sem Idealize.ShloMosaic.ValueIdx Cert.Lstm
open Idealize.ShloMosaic.Pipeline (Dat)

theorem hz : (![0, 0] : Fin 2 → Nat) = fun _ => 0 := funext fun a => by fin_cases a <;> rfl

/-! ## One grid point, over blocks of literal types -/

section Point

variable (X0 X1 : Vec Ideal S128x1024 .bf16) (X2 : Vec Ideal S128x1024 .f32) (X3 X4 : Vec Ideal S4096x1024 .bf16)
  (X5 X6 : Vec Ideal S1x4096 .f32) (X7 X8 : Vec Ideal S1x1024 .f32)
  (x h c Wih : Mat) (bih : GateVec) (Whh : Mat) (bhh : GateVec) (gam bet : HidVec) (row : Fin 128 → Fin 4096)
  (h0 : ∀ p k, X0 (ix2 p k) = x (ix2 (row p) k)) (h1 : ∀ p k, X1 (ix2 p k) = h (ix2 (row p) k))
  (h2 : ∀ p q, X2 (ix2 p q) = c (ix2 (row p) q))
  (h3 : ∀ j k, X3 (ix2 j k) = Wih (ix2 j k)) (h4 : ∀ j k, X4 (ix2 j k) = Whh (ix2 j k))
  (h5 : ∀ j, X5 (ix2 (0 : Fin 1) j) = bih (ix1 j)) (h6 : ∀ j, X6 (ix2 (0 : Fin 1) j) = bhh (ix1 j))
  (h7 : ∀ q, X7 (ix2 (0 : Fin 1) q) = gam (ix1 q)) (h8 : ∀ q, X8 (ix2 (0 : Fin 1) q) = bet (ix1 q))

include h0 h1 h2 h3 h4 h5 h6 h7 h8

/-- If the staged blocks hold rows `row p` of `x`, `h`, `c` and the whole of the other arguments, the cell-state block
    the body leaves holds, at `(p, q)`, the whole-array function at `(row p, q)`. -/
theorem cell_block (p : Fin 128) (q : Fin 1024) :
    out0_10 X0 X1 X2 X3 X4 X5 X6 X7 X8 (ix2 p q) = specCell x h c Wih bih Whh bhh gam bet (ix2 (row p) q) := by
  unfold out0_10
  rw [View.canon_unit_zero hz]
  simp only [View.ld_unit_zero (S := S128x1024) hz, View.ld_unit_zero (S := S4096x1024) hz,
    View.ld_unit_zero (S := S1x4096) hz, View.ld_unit_zero (S := S1x1024) hz]
  rw [Body.cell_apply]
  simp only [h0, h1, h2, h3, h4, h5, h6, h7, h8]
  rfl

/-- The same for the hidden-state block. -/
theorem hid_block (p : Fin 128) (q : Fin 1024) :
    out0_9 X0 X1 X2 X3 X4 X5 X6 X7 X8 (ix2 p q) = specHid x h c Wih bih Whh bhh gam bet (ix2 (row p) q) := by
  unfold out0_9
  rw [View.canon_unit_zero hz]
  simp only [View.ld_unit_zero (S := S128x1024) hz, View.ld_unit_zero (S := S4096x1024) hz,
    View.ld_unit_zero (S := S1x4096) hz, View.ld_unit_zero (S := S1x1024) hz]
  rw [Body.hid_apply]
  simp only [h0, h1, h2, h3, h4, h5, h6, h7, h8]
  rfl

end Point

variable (m : (ℓ : Loc nD τ sig) → Buf (Elt Ideal) ℓ) (ρ : Dev nD → PrngReg)

/-! ## The arrays as the region finds them: the host's narrowing and reshapes -/

theorem V_x (c : Dev nD) : (V m c main_v0 : S4096x1024.Idx → EReal) = m ((c : Thread nD τ).loc main_arg0) := by
  dsimp only [Gen.V, Gen.hostOps0]; after_results; rfl
theorem V_h (c : Dev nD) : (V m c main_v1 : S4096x1024.Idx → EReal) = m ((c : Thread nD τ).loc main_arg1) := by
  dsimp only [Gen.V, Gen.hostOps0]; after_results; rfl
theorem V_wih (c : Dev nD) : (V m c main_v2 : S4096x1024.Idx → EReal) = m ((c : Thread nD τ).loc main_arg3) := by
  dsimp only [Gen.V, Gen.hostOps0]; after_results; rfl
theorem V_whh (c : Dev nD) : (V m c main_v3 : S4096x1024.Idx → EReal) = m ((c : Thread nD τ).loc main_arg5) := by
  dsimp only [Gen.V, Gen.hostOps0]; after_results; rfl

/-- A bias viewed as a one-row matrix reads, at `(0, j)`, the bias at `j`. -/
theorem V_bih (c : Dev nD) (j : Fin 4096) :
    (V m c main_v4 : S1x4096.Idx → EReal) (ix2 (0 : Fin 1) j) = (m ((c : Thread nD τ).loc main_arg4) : S4096.Idx → EReal) (ix1 j) := by
  have e : (V m c main_v4 : S1x4096.Idx → EReal)
      = shapeCast S1x4096 (m ((c : Thread nD τ).loc main_arg4) : S4096.Idx → EReal) Facts₀.shapeCasts_S4096_S1x4096 := by
    dsimp only [Gen.V, Gen.hostOps0]; after_results; rfl
  rw [e, shapeCast_a_1a_apply]
theorem V_bhh (c : Dev nD) (j : Fin 4096) :
    (V m c main_v5 : S1x4096.Idx → EReal) (ix2 (0 : Fin 1) j) = (m ((c : Thread nD τ).loc main_arg6) : S4096.Idx → EReal) (ix1 j) := by
  have e : (V m c main_v5 : S1x4096.Idx → EReal)
      = shapeCast S1x4096 (m ((c : Thread nD τ).loc main_arg6) : S4096.Idx → EReal) Facts₀.shapeCasts_S4096_S1x4096 := by
    dsimp only [Gen.V, Gen.hostOps0]; after_results; rfl
  rw [e, shapeCast_a_1a_apply]
theorem V_gam (c : Dev nD) (q : Fin 1024) :
    (V m c main_v6 : S1x1024.Idx → EReal) (ix2 (0 : Fin 1) q) = (m ((c : Thread nD τ).loc main_arg7) : S1024.Idx → EReal) (ix1 q) := by
  have e : (V m c main_v6 : S1x1024.Idx → EReal)
      = shapeCast S1x1024 (m ((c : Thread nD τ).loc main_arg7) : S1024.Idx → EReal) Facts₀.shapeCasts_S1024_S1x1024 := by
    dsimp only [Gen.V, Gen.hostOps0]; after_results; rfl
  rw [e, shapeCast_a_1a_apply]
theorem V_bet (c : Dev nD) (q : Fin 1024) :
    (V m c main_v7 : S1x1024.Idx → EReal) (ix2 (0 : Fin 1) q) = (m ((c : Thread nD τ).loc main_arg8) : S1024.Idx → EReal) (ix1 q) := by
  have e : (V m c main_v7 : S1x1024.Idx → EReal)
      = shapeCast S1x1024 (m ((c : Thread nD τ).loc main_arg8) : S1024.Idx → EReal) Facts₀.shapeCasts_S1024_S1x1024 := by
    dsimp only [Gen.V, Gen.hostOps0]; after_results; rfl
  rw [e, shapeCast_a_1a_apply]

/-! ## Which block each window stages at a grid point -/

/-- The array row that row `p` of grid point `t`'s row blocks is: `128·t + p`. -/
def rowAt (t : Fin cfg0.N) (p : Fin 128) : Fin 4096 :=
  ⟨t.val * 128 + p.val, by have hN : cfg0.N = 32 := N_0; have h := t.isLt; have := p.isLt; omega⟩

/-- The printed index maps over the 32 grid points: the five row-block windows move with the point, the six others stay. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

theorem idx_whole : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- Row `p` of the staged `x` block is row `128·t + p` of `x`. -/
theorem blk_x (c : Dev nD) (t : Fin cfg0.N) (p : Fin 128) (k : Fin 1024) :
    (iblk m c 0 t : Vec Ideal S128x1024 .bf16) (ix2 p k) = (m ((c : Thread nD τ).loc main_arg0) : Mat) (ix2 (rowAt t p) k) := by
  obtain ⟨⟨e0, e1⟩, -⟩ := idx_rows t
  unfold iblk
  rw [View.read_apply]
  show (V m c main_v0 : S4096x1024.Idx → EReal) _ = _
  refine (congrFun (V_x m c) _).trans (congrArg _ (funext fun a => Fin.ext ?_))
  match a with
  | ⟨0, _⟩ => show win0_0.index t (0 : Fin 2) * 128 + 1 * p.val = t.val * 128 + p.val; rw [e0]; omega
  | ⟨1, _⟩ => show win0_0.index t (1 : Fin 2) * 1024 + 1 * k.val = k.val; rw [e1]; omega

/-- Row `p` of the staged `h` block is row `128·t + p` of `h`. -/
theorem blk_h (c : Dev nD) (t : Fin cfg0.N) (p : Fin 128) (k : Fin 1024) :
    (iblk m c 1 t : Vec Ideal S128x1024 .bf16) (ix2 p k) = (m ((c : Thread nD τ).loc main_arg1) : Mat) (ix2 (rowAt t p) k) := by
  obtain ⟨-, ⟨e0, e1⟩, -⟩ := idx_rows t
  unfold iblk
  rw [View.read_apply]
  show (V m c main_v1 : S4096x1024.Idx → EReal) _ = _
  refine (congrFun (V_h m c) _).trans (congrArg _ (funext fun a => Fin.ext ?_))
  match a with
  | ⟨0, _⟩ => show win0_1.index t (0 : Fin 2) * 128 + 1 * p.val = t.val * 128 + p.val; rw [e0]; omega
  | ⟨1, _⟩ => show win0_1.index t (1 : Fin 2) * 1024 + 1 * k.val = k.val; rw [e1]; omega

/-- Row `p` of the staged `c` block is row `128·t + p` of `c`. -/
theorem blk_c (c : Dev nD) (t : Fin cfg0.N) (p : Fin 128) (q : Fin 1024) :
    (iblk m c 2 t : Vec Ideal S128x1024 .f32) (ix2 p q) = (m ((c : Thread nD τ).loc main_arg2) : Mat) (ix2 (rowAt t p) q) := by
  obtain ⟨-, -, ⟨e0, e1⟩, -⟩ := idx_rows t
  unfold iblk
  rw [View.read_apply]
  show (V m c main_arg2 : S4096x1024.Idx → EReal) _ = _
  refine (congrFun (V_main_arg2 m c) _).trans (congrArg _ (funext fun a => Fin.ext ?_))
  match a with
  | ⟨0, _⟩ => show win0_2.index t (0 : Fin 2) * 128 + 1 * p.val = t.val * 128 + p.val; rw [e0]; omega
  | ⟨1, _⟩ => show win0_2.index t (1 : Fin 2) * 1024 + 1 * q.val = q.val; rw [e1]; omega

/-- The staged input-weight block is the whole matrix. -/
theorem blk_wih (c : Dev nD) (t : Fin cfg0.N) (j : Fin 4096) (k : Fin 1024) :
    (iblk m c 3 t : Vec Ideal S4096x1024 .bf16) (ix2 j k) = (m ((c : Thread nD τ).loc main_arg3) : Mat) (ix2 j k) := by
  obtain ⟨⟨e0, e1⟩, -⟩ := idx_whole t
  unfold iblk
  rw [View.read_apply]
  show (V m c main_v2 : S4096x1024.Idx → EReal) _ = _
  refine (congrFun (V_wih m c) _).trans (congrArg _ (funext fun a => Fin.ext ?_))
  match a with
  | ⟨0, _⟩ => show win0_3.index t (0 : Fin 2) * 4096 + 1 * j.val = j.val; rw [e0]; omega
  | ⟨1, _⟩ => show win0_3.index t (1 : Fin 2) * 1024 + 1 * k.val = k.val; rw [e1]; omega

/-- The staged recurrent-weight block is the whole matrix. -/
theorem blk_whh (c : Dev nD) (t : Fin cfg0.N) (j : Fin 4096) (k : Fin 1024) :
    (iblk m c 4 t : Vec Ideal S4096x1024 .bf16) (ix2 j k) = (m ((c : Thread nD τ).loc main_arg5) : Mat) (ix2 j k) := by
  obtain ⟨-, ⟨e0, e1⟩, -⟩ := idx_whole t
  unfold iblk
  rw [View.read_apply]
  show (V m c main_v3 : S4096x1024.Idx → EReal) _ = _
  refine (congrFun (V_whh m c) _).trans (congrArg _ (funext fun a => Fin.ext ?_))
  match a with
  | ⟨0, _⟩ => show win0_4.index t (0 : Fin 2) * 4096 + 1 * j.val = j.val; rw [e0]; omega
  | ⟨1, _⟩ => show win0_4.index t (1 : Fin 2) * 1024 + 1 * k.val = k.val; rw [e1]; omega

/-- The staged bias rows and layer-norm rows are the whole one-row matrices. -/
theorem blk_bih (c : Dev nD) (t : Fin cfg0.N) (j : Fin 4096) :
    (iblk m c 5 t : Vec Ideal S1x4096 .f32) (ix2 (0 : Fin 1) j) = (m ((c : Thread nD τ).loc main_arg4) : GateVec) (ix1 j) := by
  obtain ⟨-, -, ⟨e0, e1⟩, -⟩ := idx_whole t
  unfold iblk
  rw [View.read_apply]
  show (V m c main_v4 : S1x4096.Idx → EReal) _ = _
  refine Eq.trans (congrArg _ (funext fun a => Fin.ext ?_)) (V_bih m c j)
  match a with
  | ⟨0, _⟩ => show win0_5.index t (0 : Fin 2) * 1 + 1 * 0 = 0; rw [e0]
  | ⟨1, _⟩ => show win0_5.index t (1 : Fin 2) * 4096 + 1 * j.val = j.val; rw [e1]; omega

theorem blk_bhh (c : Dev nD) (t : Fin cfg0.N) (j : Fin 4096) :
    (iblk m c 6 t : Vec Ideal S1x4096 .f32) (ix2 (0 : Fin 1) j) = (m ((c : Thread nD τ).loc main_arg6) : GateVec) (ix1 j) := by
  obtain ⟨-, -, -, ⟨e0, e1⟩, -⟩ := idx_whole t
  unfold iblk
  rw [View.read_apply]
  show (V m c main_v5 : S1x4096.Idx → EReal) _ = _
  refine Eq.trans (congrArg _ (funext fun a => Fin.ext ?_)) (V_bhh m c j)
  match a with
  | ⟨0, _⟩ => show win0_6.index t (0 : Fin 2) * 1 + 1 * 0 = 0; rw [e0]
  | ⟨1, _⟩ => show win0_6.index t (1 : Fin 2) * 4096 + 1 * j.val = j.val; rw [e1]; omega

theorem blk_gam (c : Dev nD) (t : Fin cfg0.N) (q : Fin 1024) :
    (iblk m c 7 t : Vec Ideal S1x1024 .f32) (ix2 (0 : Fin 1) q) = (m ((c : Thread nD τ).loc main_arg7) : HidVec) (ix1 q) := by
  obtain ⟨-, -, -, -, ⟨e0, e1⟩, -⟩ := idx_whole t
  unfold iblk
  rw [View.read_apply]
  show (V m c main_v6 : S1x1024.Idx → EReal) _ = _
  refine Eq.trans (congrArg _ (funext fun a => Fin.ext ?_)) (V_gam m c q)
  match a with
  | ⟨0, _⟩ => show win0_7.index t (0 : Fin 2) * 1 + 1 * 0 = 0; rw [e0]
  | ⟨1, _⟩ => show win0_7.index t (1 : Fin 2) * 1024 + 1 * q.val = q.val; rw [e1]; omega

theorem blk_bet (c : Dev nD) (t : Fin cfg0.N) (q : Fin 1024) :
    (iblk m c 8 t : Vec Ideal S1x1024 .f32) (ix2 (0 : Fin 1) q) = (m ((c : Thread nD τ).loc main_arg8) : HidVec) (ix1 q) := by
  obtain ⟨-, -, -, -, -, ⟨e0, e1⟩⟩ := idx_whole t
  unfold iblk
  rw [View.read_apply]
  show (V m c main_v7 : S1x1024.Idx → EReal) _ = _
  refine Eq.trans (congrArg _ (funext fun a => Fin.ext ?_)) (V_bet m c q)
  match a with
  | ⟨0, _⟩ => show win0_8.index t (0 : Fin 2) * 1 + 1 * 0 = 0; rw [e0]
  | ⟨1, _⟩ => show win0_8.index t (1 : Fin 2) * 1024 + 1 * q.val = q.val; rw [e1]; omega

end Cert.Lstm.Kernel

end
-- ==== Proof.KernelRun.lean ====
/-
  From the 32 row blocks to the two result arrays, and the kernel's run.

  Grid point `t` writes back, for each result, the block of rows `128·t … 128·t + 127`; by `KernelValue` that block is
  the corresponding block of the whole-array function.  Row `r` lies in the block of point `r / 128`, so the blocks
  cover the array and each result array ends as the whole-array function of the nine arguments.
-/
import proofs.«165043_j12713103196909_1_alg».proof.Proof.KernelValue

noncomputable section

namespace Cert.Lstm.Kernel

open Cert.KernelIdeal Cert.KernelIdeal.Gen Cert.KernelIdeal.Value
open Idealize.ShloMosaic Idealize.ShloMosaic.TcCoe Idealize.SL.Sem Idealize.ShloMosaic.ValueIdx Cert.Lstm
open Idealize.ShloMosaic.Pipeline (Dat)

variable (m : (ℓ : Loc nD τ sig) → Buf (Elt Ideal) ℓ) (ρ : Dev nD → PrngReg)

/-- The new hidden state as a function of the launched memory. -/
abbrev hidOf (c : Dev nD) : Mat :=
  specHid (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The normalised new cell state as a function of the launched memory. -/
abbrev cellOf (c : Dev nD) : Mat :=
  specCell (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-! ## What a point writes back -/

/-- Point `t` writes back block `t` of the hidden-state function. -/
theorem flushed_hid (c : Dev nD) (t : Fin cfg0.N) :
    (dats m 0 c).flushed 9 t = ((cfg0.win 9).blk t).view.read (Elt Ideal) (hidOf m c) := by
  rw [Value.flushed9]
  funext y
  obtain ⟨p, q, rfl⟩ : ∃ (p : Fin 128) (q : Fin 1024), y = ix2 p q := ⟨y 0, y 1, eq_ix2 y⟩
  rw [View.read_apply]
  have hemb : ((cfg0.win 9).blk t).view.emb (ix2 p q) = ix2 (rowAt t p) q := by
    obtain ⟨-, -, -, ⟨e0, e1⟩, -⟩ := idx_rows t
    funext a
    apply Fin.ext
    match a with
    | ⟨0, _⟩ => show win0_9.index t (0 : Fin 2) * 128 + 1 * p.val = t.val * 128 + p.val; rw [e0]; omega
    | ⟨1, _⟩ => show win0_9.index t (1 : Fin 2) * 1024 + 1 * q.val = q.val; rw [e1]; omega
  rw [hemb]
  exact hid_block (iblk m c 0 t) (iblk m c 1 t) (iblk m c 2 t) (iblk m c 3 t) (iblk m c 4 t) (iblk m c 5 t) (iblk m c 6 t)
    (iblk m c 7 t) (iblk m c 8 t) _ _ _ _ _ _ _ _ _ (rowAt t) (blk_x m c t) (blk_h m c t) (blk_c m c t) (blk_wih m c t) (blk_whh m c t)
    (blk_bih m c t) (blk_bhh m c t) (blk_gam m c t) (blk_bet m c t) p q

/-- Point `t` writes back block `t` of the cell-state function. -/
theorem flushed_cell (c : Dev nD) (t : Fin cfg0.N) :
    (dats m 0 c).flushed 10 t = ((cfg0.win 10).blk t).view.read (Elt Ideal) (cellOf m c) := by
  rw [Value.flushed10]
  funext y
  obtain ⟨p, q, rfl⟩ : ∃ (p : Fin 128) (q : Fin 1024), y = ix2 p q := ⟨y 0, y 1, eq_ix2 y⟩
  rw [View.read_apply]
  have hemb : ((cfg0.win 10).blk t).view.emb (ix2 p q) = ix2 (rowAt t p) q := by
    obtain ⟨-, -, -, -, ⟨e0, e1⟩⟩ := idx_rows t
    funext a
    apply Fin.ext
    match a with
    | ⟨0, _⟩ => show win0_10.index t (0 : Fin 2) * 128 + 1 * p.val = t.val * 128 + p.val; rw [e0]; omega
    | ⟨1, _⟩ => show win0_10.index t (1 : Fin 2) * 1024 + 1 * q.val = q.val; rw [e1]; omega
  rw [hemb]
  exact cell_block (iblk m c 0 t) (iblk m c 1 t) (iblk m c 2 t) (iblk m c 3 t) (iblk m c 4 t) (iblk m c 5 t) (iblk m c 6 t)
    (iblk m c 7 t) (iblk m c 8 t) _ _ _ _ _ _ _ _ _ (rowAt t) (blk_x m c t) (blk_h m c t) (blk_c m c t) (blk_wih m c t) (blk_whh m c t)
    (blk_bih m c t) (blk_bhh m c t) (blk_gam m c t) (blk_bet m c t) p q

/-! ## The blocks cover the arrays -/

/-- An index is in point `t`'s hidden-state block iff each coordinate is in the block's range on its axis. -/
theorem mem_blk_hid (t : Fin cfg0.N) (i : S4096x1024.Idx) :
    i ∈ ((cfg0.win 9).blk t).view.set ↔ ∀ a : Fin 2, win0_9.index t a * S128x1024.size a ≤ (i a).val ∧ (i a).val < win0_9.index t a * S128x1024.size a + S128x1024.size a := by
  show i ∈ ((View.whole main_v8_0).slice (win0_9.rect t)).set ↔ _
  rw [View.set_slice_whole, Rect.mem_set_unit]
  exact Iff.rfl

theorem mem_blk_cell (t : Fin cfg0.N) (i : S4096x1024.Idx) :
    i ∈ ((cfg0.win 10).blk t).view.set ↔ ∀ a : Fin 2, win0_10.index t a * S128x1024.size a ≤ (i a).val ∧ (i a).val < win0_10.index t a * S128x1024.size a + S128x1024.size a := by
  show i ∈ ((View.whole main_v8_1).slice (win0_10.rect t)).set ↔ _
  rw [View.set_slice_whole, Rect.mem_set_unit]
  exact Iff.rfl

/-- The point whose row block holds array row `r`: `r / 128`. -/
def pointOf (i : S4096x1024.Idx) : Fin cfg0.N :=
  ⟨(i 0).val / 128, by have hN : cfg0.N = 32 := N_0; have h : (i 0).val < 4096 := (i 0).isLt; omega⟩

theorem cover_hid (i : S4096x1024.Idx) : ∃ t : Fin cfg0.N, (cfg0.win 9).flush t = true ∧ i ∈ ((cfg0.win 9).blk t).view.set := by
  refine ⟨pointOf i, flush0_9 _, ?_⟩
  obtain ⟨-, -, -, ⟨e0, e1⟩, -⟩ := idx_rows (pointOf i)
  have h0 : (i 0).val < 4096 := (i 0).isLt
  have h1 : (i 1).val < 1024 := (i 1).isLt
  have hp : (pointOf i).val = (i 0).val / 128 := rfl
  rw [mem_blk_hid]
  intro a
  match a with
  | ⟨0, _⟩ => show win0_9.index (pointOf i) (0 : Fin 2) * 128 ≤ (i 0).val ∧ (i 0).val < win0_9.index (pointOf i) (0 : Fin 2) * 128 + 128; rw [e0, hp]; omega
  | ⟨1, _⟩ => show win0_9.index (pointOf i) (1 : Fin 2) * 1024 ≤ (i 1).val ∧ (i 1).val < win0_9.index (pointOf i) (1 : Fin 2) * 1024 + 1024; rw [e1]; omega

theorem cover_cell (i : S4096x1024.Idx) : ∃ t : Fin cfg0.N, (cfg0.win 10).flush t = true ∧ i ∈ ((cfg0.win 10).blk t).view.set := by
  refine ⟨pointOf i, flush0_10 _, ?_⟩
  obtain ⟨-, -, -, -, ⟨e0, e1⟩⟩ := idx_rows (pointOf i)
  have h0 : (i 0).val < 4096 := (i 0).isLt
  have h1 : (i 1).val < 1024 := (i 1).isLt
  have hp : (pointOf i).val = (i 0).val / 128 := rfl
  rw [mem_blk_cell]
  intro a
  match a with
  | ⟨0, _⟩ => show win0_10.index (pointOf i) (0 : Fin 2) * 128 ≤ (i 0).val ∧ (i 0).val < win0_10.index (pointOf i) (0 : Fin 2) * 128 + 128; rw [e0, hp]; omega
  | ⟨1, _⟩ => show win0_10.index (pointOf i) (1 : Fin 2) * 1024 ≤ (i 1).val ∧ (i 1).val < win0_10.index (pointOf i) (1 : Fin 2) * 1024 + 1024; rw [e1]; omega

/-! ## The arrays after the run, and the run -/

theorem final_hid (c : Dev nD) : (dats m 0 c).arrAt 9 cfg0.N = hidOf m c :=
  (dats m 0 c).arrAt_eq_of_cover 9 (hidOf m c) (fun t _ => flushed_hid m c t) cover_hid

theorem final_cell (c : Dev nD) : (dats m 0 c).arrAt 10 cfg0.N = cellOf m c :=
  (dats m 0 c).arrAt_eq_of_cover 10 (cellOf m c) (fun t _ => flushed_cell m c t) cover_cell

/-- Every weakly fair execution of the idealised kernel ends with the two results at the whole-array functions of the
    arguments, and the arguments unchanged. -/
theorem run : θ_run defs (onTc (τ := τ) (main (F := Ideal))) ⟨m, fun _ => 0, ρ⟩ fun r => ∀ c : Dev nD,
      r.2.mem ((c : Thread nD τ).loc main_v8_0) = hidOf m c
      ∧ r.2.mem ((c : Thread nD τ).loc main_v8_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final_hid m c), (h c).2.1.trans (final_cell m c), (h c).2.2⟩)
    (Value.run_blocks m ρ)

end Cert.Lstm.Kernel

end
-- ==== Proof.lean ====
/-
  A fused LSTM cell with a layer normalisation of the new cell state, against its plain reference,
  over the extended reals.

  Both programs compute, for each of the 4096 batch rows, the gate pre-activations
  `x·W_ihᵀ + h·W_hhᵀ + b_ih + b_hh`, the gates (three logistic functions and a tanh), the new cell
  `c·f + i·g`, its layer normalisation `(c' − μ)·rsqrt(var + ε)·γ + β` over the 1024 hidden units, and the
  new hidden state `o·tanh` of that.  They differ in three ways, none of which changes the value over the
  extended reals: the kernel narrows `x`, `h` and the weights to bf16 before the products (a change of
  format is the identity here); it adds the two biases to each other before adding them to the sum of
  the two products, where the reference adds the four terms one after the other (addition is commutative
  and associative); and it applies the logistic function as one operation where the reference spells
  `1 / (1 + e^{−z})` (the same function, the infinities included).  The kernel works on 32 blocks of 128
  rows, which tile the batch.

  `CellMath` states the result as one function of the nine argument arrays; `HostSide` shows the
  reference's two results are that function, `Payload`, `KernelValue` and `KernelRun` that the kernel's are.
  No precondition is used: the equality holds at every extended-real input.
-/
import proofs.«165043_j12713103196909_1_alg».proof.Defs
import proofs.«165043_j12713103196909_1_alg».proof.Proof.Gen.Kernel
import proofs.«165043_j12713103196909_1_alg».proof.Proof.Gen.Kernel.Skeleton
import proofs.«165043_j12713103196909_1_alg».proof.Proof.Gen.Kernel.Launch
import proofs.«165043_j12713103196909_1_alg».proof.Proof.Gen.Kernel.Points
import proofs.«165043_j12713103196909_1_alg».proof.Proof.Gen.Kernel.Frame
import proofs.«165043_j12713103196909_1_alg».proof.Proof.Gen.KernelIdeal
import proofs.«165043_j12713103196909_1_alg».proof.Proof.Gen.KernelIdeal.Skeleton
import proofs.«165043_j12713103196909_1_alg».proof.Proof.Gen.KernelIdeal.Launch
import proofs.«165043_j12713103196909_1_alg».proof.Proof.Gen.KernelIdeal.Points
import proofs.«165043_j12713103196909_1_alg».proof.Proof.Gen.KernelIdeal.Frame
import proofs.«165043_j12713103196909_1_alg».proof.Proof.Gen.ReferenceIdeal
import proofs.«165043_j12713103196909_1_alg».proof.Proof.Gen.Pre_finite_inputs
import proofs.«165043_j12713103196909_1_alg».proof.Proof.Gen.KernelIdeal.Value
import proofs.«165043_j12713103196909_1_alg».proof.Proof.Gen.ReferenceIdeal.Run
import proofs.«165043_j12713103196909_1_alg».proof.Proof.Gen.ReferenceIdeal.Read
import proofs.«165043_j12713103196909_1_alg».proof.Proof.HostSide
import proofs.«165043_j12713103196909_1_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealised kernel. -/
theorem frame_kernelIdeal : Cert.frame_KernelIdeal := fun m ρ _ => Cert.KernelIdeal.Gen.frame m ρ

/-- The reference is a straight line of host operations: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the nine arguments both programs end with the new hidden state and the normalised new
    cell state at the same whole-array functions of the arguments. -/
theorem algebraic : Cert.algebraic_KernelIdeal_ReferenceIdeal := by
  intro m ρ m' ρ' _ hagree
  refine ⟨fun c => Cert.Lstm.Kernel.hidOf m c, fun c => Cert.Lstm.Kernel.cellOf m c, Cert.Lstm.Kernel.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8⟩ := hagree c
    rw [Cert.ReferenceIdeal.Read.val_main_v62_eq, Cert.Lstm.Host.hid_eq, a0, a1, a2, a3, a4, a5, a6, a7, a8]
  · obtain ⟨a0, a1, a2, a3, a4, a5, a6, a7, a8⟩ := hagree c
    rw [Cert.ReferenceIdeal.Read.val_main_v60_eq, Cert.Lstm.Host.cell_eq, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
